-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) (main_arg2 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x4096x64 : Shape := ⟨3, ![4, 4096, 64]⟩
abbrev S4x64x64 : Shape := ⟨3, ![4, 64, 64]⟩
abbrev S1x4096x64 : Shape := ⟨3, ![1, 4096, 64]⟩
abbrev S1x64x64 : Shape := ⟨3, ![1, 64, 64]⟩
abbrev S4096x64 : Shape := ⟨2, ![4096, 64]⟩
abbrev S64x64 : Shape := ⟨2, ![64, 64]⟩
abbrev S1x1024x64 : Shape := ⟨3, ![1, 1024, 64]⟩
abbrev S1024x64 : Shape := ⟨2, ![1024, 64]⟩

abbrev nBuf : Space → Nat
  | .hbm => 5
  | .vmem => 12
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x64x64, .f32⟩
  | .hbm, ⟨4, _⟩ => ⟨S4x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x64x64, .f32⟩
  | .local _ .vmem, ⟨5, _⟩ => ⟨S1x64x64, .f32⟩
  | .local _ .vmem, ⟨6, _⟩ => ⟨S1x1024x64, .f32⟩
  | .local _ .vmem, ⟨7, _⟩ => ⟨S1x1024x64, .f32⟩
  | .local _ .vmem, ⟨8, _⟩ => ⟨S1x64x64, .f32⟩
  | .local _ .vmem, ⟨9, _⟩ => ⟨S1x64x64, .f32⟩
  | .local _ .vmem, ⟨10, _⟩ => ⟨S1x1024x64, .f32⟩
  | .local _ .vmem, ⟨11, _⟩ => ⟨S1x1024x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S4096x64_S4096x64_S64x64_0_0_1_1_n_n_wf : DotDims.WF S4096x64 S4096x64 S64x64 [0] [0] [1] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x4096x64.size a
  hwx0_0 : ∀ i : grid0.Coords, EltTy.bits .f32 = 32 ∨ (Rect.block (s := S4x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S4x64x64.size a
  hwx0_2 : ∀ i : grid0.Coords, EltTy.bits .f32 = 32 ∨ (Rect.block (s := S4x64x64) S1x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .f32 = 32 ∨ (Rect.block (s := S4x4096x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S4x64x64.size a
  hwx1_1 : ∀ i : grid1.Coords, EltTy.bits .f32 = 32 ∨ (Rect.block (s := S4x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .f32 = 32 ∨ (Rect.block (s := S4x4096x64) S1x1024x64.size (cc1_transform_2 i) (hinb1_2 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg1) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x64 : Shape := ⟨3, ![4, 4096, 64]⟩
abbrev S4x4096x4096 : Shape := ⟨3, ![4, 4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x4096, .f32⟩
  | .hbm, ⟨4, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Reassoc.lean ====
/-
  The mathematics of the certificate, over abstract arrays and with no program in sight.

  For each batch b the kernel forms the small matrix  KV[b] = K[b]ᵀ · V[b]  (64 × 64, a sum over the 4096
  sequence positions) and then  out[b] = Q[b] · KV[b]  (a sum over the 64 features); the reference forms the
  4096 × 4096 score matrix  Q[b] · K[b]ᵀ  first and multiplies it by V[b].  Entry by entry,

      Σ_d q[b,r,d] · (Σ_s k[b,s,d] · v[b,s,e])   =   Σ_j (Σ_d q[b,r,d] · k[b,j,d]) · v[b,j,e],

  which is associativity of the matrix product: distribute each factor over the inner sum and exchange the two
  finite sums.  Distributivity fails on the extended reals at the infinities, so the law is proved for arrays whose
  entries are real numbers, which is what the precondition (every input finite) provides.
-/
import Idealize.ShloMosaic.PureOps.Ideal
import Idealize.ShloMosaic.Lib.ValueIdx

noncomputable section

namespace Cert.Attn

open Idealize.ShloMosaic Idealize.ShloMosaic.ValueIdx

/-- The shape of q, k, v and of the result: batch × sequence × feature. -/
abbrev Arr : Shape := ⟨3, ![4, 4096, 64]⟩
/-- The shape of the per-batch feature × feature matrix KᵀV. -/
abbrev Kv : Shape := ⟨3, ![4, 64, 64]⟩

/-- KᵀV, batch by batch: entry (b, d, e) sums k[b,s,d] · v[b,s,e] over the sequence positions s. -/
def kvArr (k v : Arr.Idx → EReal) : Kv.Idx → EReal :=
  fun i => ∑ s : Fin 4096, k (ix3 (i 0) s (i 1)) * v (ix3 (i 0) s (i 2))

/-- Q · M for a per-batch feature × feature matrix M: entry (b, r, e) sums q[b,r,d] · M[b,d,e] over the features d. -/
def outArr (q : Arr.Idx → EReal) (kv : Kv.Idx → EReal) : Arr.Idx → EReal :=
  fun i => ∑ d : Fin 64, q (ix3 (i 0) (i 1) d) * kv (ix3 (i 0) d (i 2))

/-- (Q · Kᵀ) · V: entry (b, r, e) sums, over the sequence positions j, the score Σ_d q[b,r,d] · k[b,j,d] times v[b,j,e]. -/
def refArr (q k v : Arr.Idx → EReal) : Arr.Idx → EReal :=
  fun i => ∑ j : Fin 4096, (∑ d : Fin 64, q (ix3 (i 0) (i 1) d) * k (ix3 (i 0) j d)) * v (ix3 (i 0) j (i 2))

/-- Every entry of the array is a real number (neither infinity). -/
def IsReal (x : Arr.Idx → EReal) : Prop := ∀ i, ∃ r : ℝ, x i = (r : EReal)

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of a triple product, entry-wise, for real factors read in the extended reals. -/
theorem reassoc {ι κ : Type*} [Fintype ι] [Fintype κ] (q : ι → ℝ) (k : κ → ι → ℝ) (v : κ → ℝ) :
    ∑ d, (q d : EReal) * ∑ s, (k s d : EReal) * (v s : EReal)
      = ∑ j, (∑ d, (q d : EReal) * (k j d : EReal)) * (v j : EReal) := by
  simp only [← EReal.coe_mul, ← coe_sum]
  refine congrArg _ ?_
  simp only [Finset.mul_sum, Finset.sum_mul]
  rw [Finset.sum_comm]
  exact Finset.sum_congr rfl fun j _ => Finset.sum_congr rfl fun d _ => by ring

/-- On real-valued arrays, Q · (KᵀV) and (Q · Kᵀ) · V are the same array. -/
theorem out_kv_eq_ref {q k v : Arr.Idx → EReal} (hq : IsReal q) (hk : IsReal k) (hv : IsReal v) :
    outArr q (kvArr k v) = refArr q k v := by
  choose q' hq' using hq
  choose k' hk' using hk
  choose v' hv' using hv
  obtain rfl : q = fun i => (q' i : EReal) := funext hq'
  obtain rfl : k = fun i => (k' i : EReal) := funext hk'
  obtain rfl : v = fun i => (v' i : EReal) := funext hv'
  funext i
  exact reassoc (fun d => q' (ix3 (i 0) (i 1) d)) (fun s d => k' (ix3 (i 0) s d)) (fun s => v' (ix3 (i 0) s (i 2)))

end Cert.Attn

end
-- ==== Proof.KernelPay.lean ====
/-
  The arithmetic of the two kernel bodies, read entry by entry at the ideal values.

  The first body loads one batch of k and of v (each 1 × 4096 × 64), drops the unit axis, and multiplies them
  contracting the SEQUENCE axis of both: entry (d, e) of the 64 × 64 product is Σ_s k[s,d] · v[s,e].  The second body
  loads a 1 × 1024 × 64 tile of q and the 1 × 64 × 64 matrix of its batch and multiplies them the ordinary way: entry
  (r, e) is Σ_d q[r,d] · M[d,e].  The narrowing of the operands to bf16 is the identity on the extended reals, and both
  products accumulate into zero, so nothing else is left of either body.
-/
import proofs.«134025_j61933428410286_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The first product: both operands contracted along their axis 0 -/

theorem kv_lhs_0 (i : S64x64.Idx) (q : dot_S4096x64_S4096x64_S64x64_0_0_1_1_n_n.contr.Idx) :
    (dot_S4096x64_S4096x64_S64x64_0_0_1_1_n_n.lhsIdx i q 0).val = (q ⟨0, by decide⟩).val :=
  dot_S4096x64_S4096x64_S64x64_0_0_1_1_n_n.lhsIdx_val_of_single rfl i q
theorem kv_lhs_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
theorem kv_rhs_0 (i : S64x64.Idx) (q : dot_S4096x64_S4096x64_S64x64_0_0_1_1_n_n.contr.Idx) :
    (dot_S4096x64_S4096x64_S64x64_0_0_1_1_n_n.rhsIdx i q 0).val = (q ⟨0, by decide⟩).val :=
  dot_S4096x64_S4096x64_S64x64_0_0_1_1_n_n.rhsIdx_val_of_single rfl i q
theorem kv_rhs_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

/-- Entry (d, e) of what the first body stores: the sum over the sequence positions s of k[s,d] · v[s,e]. -/
theorem kv_pay (x0 x1 : Vec Ideal S1x4096x64 .f32) (u : Fin 1) (d e : Fin 64) :
    k0_pay1 x0 x1 (ix3 u d e) = ∑ s : Fin 4096, x0 (ix3 (0 : Fin 1) s d) * x1 (ix3 (0 : Fin 1) s e) := by
  unfold k0_pay1
  refine (shapeCast_ab_1ab_apply _ _ u d e).trans ?_
  simp only [matmul]
  rw [Ideal.matmul_constant_zero_apply, ← Equiv.sum_comp (contrEquiv1 dot_S4096x64_S4096x64_S64x64_0_0_1_1_n_n 4096 rfl rfl).symm]
  refine Finset.sum_congr rfl fun s _ => ?_
  have hs := contrEquiv1_symm_val dot_S4096x64_S4096x64_S64x64_0_0_1_1_n_n 4096 rfl rfl s
  have el : dot_S4096x64_S4096x64_S64x64_0_0_1_1_n_n.lhsIdx (ix2 d e) ((contrEquiv1 dot_S4096x64_S4096x64_S64x64_0_0_1_1_n_n 4096 rfl rfl).symm s) = ix2 s d := funext fun a => Fin.ext (by
    match a with
    | ⟨0, _⟩ => exact (kv_lhs_0 _ _).trans hs
    | ⟨1, _⟩ => exact kv_lhs_1 _ _)
  have er : dot_S4096x64_S4096x64_S64x64_0_0_1_1_n_n.rhsIdx (ix2 d e) ((contrEquiv1 dot_S4096x64_S4096x64_S64x64_0_0_1_1_n_n 4096 rfl rfl).symm s) = ix2 s e := funext fun a => Fin.ext (by
    match a with
    | ⟨0, _⟩ => exact (kv_rhs_0 _ _).trans hs
    | ⟨1, _⟩ => exact kv_rhs_1 _ _)
  rw [el, er]
  show shapeCast S4096x64 x0 _ (ix2 s d) * shapeCast S4096x64 x1 _ (ix2 s e) = _
  rw [shapeCast_1ab_ab_apply, shapeCast_1ab_ab_apply]

/-! ## The second product: rows of the tile against columns of the matrix -/

theorem out_lhs_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem out_lhs_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem out_rhs_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem out_rhs_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- Entry (r, e) of what the second body stores: the sum over the features d of q[r,d] · M[d,e]. -/
theorem out_pay (x0 : Vec Ideal S1x1024x64 .f32) (x1 : Vec Ideal S1x64x64 .f32) (u : Fin 1) (r : Fin 1024) (e : Fin 64) :
    k1_pay1 x0 x1 (ix3 u r e) = ∑ d : Fin 64, x0 (ix3 (0 : Fin 1) r d) * x1 (ix3 (0 : Fin 1) d e) := by
  unfold k1_pay1
  refine (shapeCast_ab_1ab_apply _ _ u r e).trans ?_
  simp only [matmul]
  rw [Ideal.matmul_constant_zero_apply, ← Equiv.sum_comp (contrEquiv1 dot_S1024x64_S64x64_S1024x64_1_0_0_1_n_n 64 rfl rfl).symm]
  refine Finset.sum_congr rfl fun d _ => ?_
  have hd := contrEquiv1_symm_val dot_S1024x64_S64x64_S1024x64_1_0_0_1_n_n 64 rfl rfl d
  have el : dot_S1024x64_S64x64_S1024x64_1_0_0_1_n_n.lhsIdx (ix2 r e) ((contrEquiv1 dot_S1024x64_S64x64_S1024x64_1_0_0_1_n_n 64 rfl rfl).symm d) = ix2 r d := funext fun a => Fin.ext (by
    match a with
    | ⟨0, _⟩ => exact out_lhs_0 _ _
    | ⟨1, _⟩ => exact (out_lhs_1 _ _).trans hd)
  have er : dot_S1024x64_S64x64_S1024x64_1_0_0_1_n_n.rhsIdx (ix2 r e) ((contrEquiv1 dot_S1024x64_S64x64_S1024x64_1_0_0_1_n_n 64 rfl rfl).symm d) = ix2 d e := funext fun a => Fin.ext (by
    match a with
    | ⟨0, _⟩ => exact (out_rhs_0 _ _).trans hd
    | ⟨1, _⟩ => exact out_rhs_1 _ _)
  rw [el, er]
  show shapeCast S1024x64 x0 _ (ix2 r d) * shapeCast S64x64 x1 _ (ix2 d e) = _
  rw [shapeCast_1ab_ab_apply, shapeCast_1ab_ab_apply]

end Cert.KernelIdeal.Pay

end
-- ==== Proof.KernelValue.lean ====
/-
  From blocks to whole arrays, region by region.

  Region 0 runs on a grid of 4 points, one per batch: point t stages batch t of k and of v and writes block t of the
  4 × 64 × 64 intermediate, so after the region that array is KᵀV batch by batch (`kvArr`).  Region 1 runs on a 4 × 4
  grid, point t = 4·b + p: it stages rows 1024·p … 1024·p + 1023 of batch b of q together with matrix b of the
  intermediate, and writes the same rows of the result, so after the region the result is q times the intermediate
  (`outArr`).  In both regions the output blocks tile their array, every point writes its block back, and a block's
  entry sits in the array at (block index) × (block size) + (its own coordinate) on each axis.
-/
import proofs.«134025_j61933428410286_1_alg».proof.Proof.Gen.KernelIdeal.Frame
import proofs.«134025_j61933428410286_1_alg».proof.Proof.KernelPay
import proofs.«134025_j61933428410286_1_alg».proof.Proof.KernelRun
import proofs.«134025_j61933428410286_1_alg».proof.Proof.Reassoc
import Idealize.ShloMosaic.Lib.Pipeline.Value

set_option maxRecDepth 16384

noncomputable section

namespace Cert.KernelIdeal.Val

open Cert.KernelIdeal Cert.KernelIdeal.Gen Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## One point's arithmetic against the whole-array functions -/

/-- If the two loaded blocks hold the rows of K and V that entry `i` of KᵀV sums over, the first body's value at
    (d, e) is that entry. -/
theorem kv_point (K V : Arr.Idx → EReal) (x0 x1 : Vec Ideal S1x4096x64 .f32) (u : Fin 1) (d e : Fin 64) (i : Kv.Idx)
    (h0 : ∀ s : Fin 4096, x0 (ix3 (0 : Fin 1) s d) = K (ix3 (i 0) s (i 1)))
    (h1 : ∀ s : Fin 4096, x1 (ix3 (0 : Fin 1) s e) = V (ix3 (i 0) s (i 2))) :
    k0_pay1 x0 x1 (ix3 u d e) = kvArr K V i := by
  rw [Pay.kv_pay]
  exact Finset.sum_congr rfl fun s _ => by rw [h0, h1]

/-- If the loaded tile holds row (i 0, i 1) of Q and the loaded matrix is matrix (i 0) of M, the second body's value at
    (r, e) is entry `i` of Q · M. -/
theorem out_point (Q : Arr.Idx → EReal) (M : Kv.Idx → EReal) (x0 : Vec Ideal S1x1024x64 .f32) (x1 : Vec Ideal S1x64x64 .f32)
    (u : Fin 1) (r : Fin 1024) (e : Fin 64) (i : Arr.Idx)
    (h0 : ∀ d : Fin 64, x0 (ix3 (0 : Fin 1) r d) = Q (ix3 (i 0) (i 1) d))
    (h1 : ∀ d : Fin 64, x1 (ix3 (0 : Fin 1) d e) = M (ix3 (i 0) d (i 2))) :
    k1_pay1 x0 x1 (ix3 u r e) = outArr Q M i := by
  rw [Pay.out_pay]
  exact Finset.sum_congr rfl fun d _ => by rw [h0, h1]

/-! ## Region 0: the intermediate array is KᵀV -/

/-- The three index maps of region 0, decided over its 4 points: each window sits at block (t, 0, 0). -/
theorem idx_kv : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of KᵀV of the arrays the region finds. -/
theorem flushed_kv (c : Dev nD) (t : Fin cfg0.N) :
    (dat0 (V0 m ρ) c).flushed 2 t
      = ((cfg0.win 2).blk t).view.read (Elt Ideal) (kvArr (V0 m ρ c main_arg1) (V0 m ρ c main_arg2)) := by
  show (cfg0.win 2).cut (grid0.coords t) ((dat0 (V0 m ρ) c).after 2 t) = _
  rw [after0_2]
  unfold out0_2
  rw [View.canon_unit_zero hz3]
  simp only [View.ld_unit_zero (S := S1x4096x64) hz3]
  obtain ⟨a0, a1, a2, b0, b1, b2, o0, o1, o2⟩ := idx_kv t
  funext j
  obtain ⟨u, d, e, rfl⟩ : ∃ (u : Fin 1) (d e : Fin 64), j = ix3 u d e := ⟨j 0, j 1, j 2, eq_ix3 j⟩
  have hu : u.val = 0 := by omega
  show k0_pay1 (iblk0 (V0 m ρ) c 0 t) (iblk0 (V0 m ρ) c 1 t) (ix3 u d e)
    = kvArr (V0 m ρ c main_arg1) (V0 m ρ c main_arg2) (((cfg0.win 2).blk t).view.emb (ix3 u d e))
  refine kv_point (V0 m ρ c main_arg1) (V0 m ρ c main_arg2) (iblk0 (V0 m ρ) c 0 t) (iblk0 (V0 m ρ) c 1 t) u d e
    (((cfg0.win 2).blk t).view.emb (ix3 u d e)) (fun s => ?_) (fun s => ?_)
  · show V0 m ρ c main_arg1 (((cfg0.win 0).blk t).view.emb (ix3 (0 : Fin 1) s d)) = _
    refine congrArg _ (funext fun a => Fin.ext ?_)
    match a with
    | ⟨0, _⟩ => show win0_0.index t (0 : Fin 3) * 1 + 1 * (0 : Fin 1).val = win0_2.index t (0 : Fin 3) * 1 + 1 * u.val; simp only [Fin.val_zero]; omega
    | ⟨1, _⟩ => show win0_0.index t (1 : Fin 3) * 4096 + 1 * s.val = s.val; omega
    | ⟨2, _⟩ => show win0_0.index t (2 : Fin 3) * 64 + 1 * d.val = win0_2.index t (1 : Fin 3) * 64 + 1 * d.val; omega
  · show V0 m ρ c main_arg2 (((cfg0.win 1).blk t).view.emb (ix3 (0 : Fin 1) s e)) = _
    refine congrArg _ (funext fun a => Fin.ext ?_)
    match a with
    | ⟨0, _⟩ => show win0_1.index t (0 : Fin 3) * 1 + 1 * (0 : Fin 1).val = win0_2.index t (0 : Fin 3) * 1 + 1 * u.val; simp only [Fin.val_zero]; omega
    | ⟨1, _⟩ => show win0_1.index t (1 : Fin 3) * 4096 + 1 * s.val = s.val; omega
    | ⟨2, _⟩ => show win0_1.index t (2 : Fin 3) * 64 + 1 * e.val = win0_2.index t (2 : Fin 3) * 64 + 1 * e.val; omega

/-- An entry of the intermediate array lies in point t's block iff each coordinate lies in the block's range. -/
theorem mem_blk_kv (t : Fin cfg0.N) (i : S4x64x64.Idx) :
    i ∈ ((cfg0.win 2).blk t).view.set ↔ ∀ a : Fin 3, win0_2.index t a * S1x64x64.size a ≤ (i a).val ∧ (i a).val < win0_2.index t a * S1x64x64.size a + S1x64x64.size a := by
  show i ∈ ((View.whole main_v0).slice (win0_2.rect t)).set ↔ _
  rw [View.set_slice_whole, Rect.mem_set_unit]
  exact Iff.rfl

/-- Every entry (b, d, e) of the intermediate array is in the block of point b. -/
theorem cover_kv (i : S4x64x64.Idx) :
    ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 64 := (i 2).isLt
  have hN : (i 0).val < cfg0.N := by show (i 0).val < grid0.N; rw [N_0]; exact hi0
  obtain ⟨t, ht⟩ : ∃ t : Fin cfg0.N, t.val = (i 0).val := ⟨⟨(i 0).val, hN⟩, rfl⟩
  refine ⟨t, flush0_2 t, ?_⟩
  obtain ⟨-, -, -, -, -, -, o0, o1, o2⟩ := idx_kv t
  rw [mem_blk_kv]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 64 ≤ (i 2).val ∧ (i 2).val < win0_2.index t (2 : Fin 3) * 64 + 64; omega

/-- After region 0 the intermediate array is KᵀV of the arrays the region finds. -/
theorem final_kv (c : Dev nD) : (dat0 (V0 m ρ) c).arrAt 2 cfg0.N = kvArr (V0 m ρ c main_arg1) (V0 m ρ c main_arg2) :=
  (dat0 (V0 m ρ) c).arrAt_eq_of_cover 2 (kvArr (V0 m ρ c main_arg1) (V0 m ρ c main_arg2)) (fun t _ => flushed_kv m ρ c t) cover_kv

/-! ## Region 1: the result array is q times the intermediate -/

/-- The three index maps of region 1, decided over its 16 points t = 4·b + p: the tile of q and the output block sit at
    block (b, p, 0), the matrix at block (b, 0, 0). -/
theorem idx_out : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0 :=
  (by decide +kernel : ∀ t : Fin grid1.N, _)

/-- What point t writes back is block t of q times the intermediate, of the arrays the region finds. -/
theorem flushed_out (c : Dev nD) (t : Fin cfg1.N) :
    (dat1 (V1 m ρ) c).flushed 2 t
      = ((cfg1.win 2).blk t).view.read (Elt Ideal) (outArr (V1 m ρ c main_arg0) (V1 m ρ c main_v0)) := by
  show (cfg1.win 2).cut (grid1.coords t) ((dat1 (V1 m ρ) c).after 2 t) = _
  rw [after1_2]
  unfold out1_2
  rw [View.canon_unit_zero hz3]
  simp only [View.ld_unit_zero (S := S1x1024x64) hz3, View.ld_unit_zero (S := S1x64x64) hz3]
  obtain ⟨a0, a1, a2, b0, b1, b2, o0, o1, o2⟩ := idx_out t
  funext j
  obtain ⟨u, r, e, rfl⟩ : ∃ (u : Fin 1) (r : Fin 1024) (e : Fin 64), j = ix3 u r e := ⟨j 0, j 1, j 2, eq_ix3 j⟩
  have hu : u.val = 0 := by omega
  show k1_pay1 (iblk1 (V1 m ρ) c 0 t) (iblk1 (V1 m ρ) c 1 t) (ix3 u r e)
    = outArr (V1 m ρ c main_arg0) (V1 m ρ c main_v0) (((cfg1.win 2).blk t).view.emb (ix3 u r e))
  refine out_point (V1 m ρ c main_arg0) (V1 m ρ c main_v0) (iblk1 (V1 m ρ) c 0 t) (iblk1 (V1 m ρ) c 1 t) u r e
    (((cfg1.win 2).blk t).view.emb (ix3 u r e)) (fun d => ?_) (fun d => ?_)
  · show V1 m ρ c main_arg0 (((cfg1.win 0).blk t).view.emb (ix3 (0 : Fin 1) r d)) = _
    refine congrArg _ (funext fun a => Fin.ext ?_)
    match a with
    | ⟨0, _⟩ => show win1_0.index t (0 : Fin 3) * 1 + 1 * (0 : Fin 1).val = win1_2.index t (0 : Fin 3) * 1 + 1 * u.val; simp only [Fin.val_zero]; omega
    | ⟨1, _⟩ => show win1_0.index t (1 : Fin 3) * 1024 + 1 * r.val = win1_2.index t (1 : Fin 3) * 1024 + 1 * r.val; omega
    | ⟨2, _⟩ => show win1_0.index t (2 : Fin 3) * 64 + 1 * d.val = d.val; omega
  · show V1 m ρ c main_v0 (((cfg1.win 1).blk t).view.emb (ix3 (0 : Fin 1) d e)) = _
    refine congrArg _ (funext fun a => Fin.ext ?_)
    match a with
    | ⟨0, _⟩ => show win1_1.index t (0 : Fin 3) * 1 + 1 * (0 : Fin 1).val = win1_2.index t (0 : Fin 3) * 1 + 1 * u.val; simp only [Fin.val_zero]; omega
    | ⟨1, _⟩ => show win1_1.index t (1 : Fin 3) * 64 + 1 * d.val = d.val; omega
    | ⟨2, _⟩ => show win1_1.index t (2 : Fin 3) * 64 + 1 * e.val = win1_2.index t (2 : Fin 3) * 64 + 1 * e.val; omega

/-- An entry of the result array lies in point t's block iff each coordinate lies in the block's range. -/
theorem mem_blk_out (t : Fin cfg1.N) (i : S4x4096x64.Idx) :
    i ∈ ((cfg1.win 2).blk t).view.set ↔ ∀ a : Fin 3, win1_2.index t a * S1x1024x64.size a ≤ (i a).val ∧ (i a).val < win1_2.index t a * S1x1024x64.size a + S1x1024x64.size a := by
  show i ∈ ((View.whole main_v1).slice (win1_2.rect t)).set ↔ _
  rw [View.set_slice_whole, Rect.mem_set_unit]
  exact Iff.rfl

/-- Every entry (b, R, e) of the result array is in the block of point 4·b + R / 1024. -/
theorem cover_out (i : S4x4096x64.Idx) :
    ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 64 := (i 2).isLt
  have hN : 4 * (i 0).val + (i 1).val / 1024 < cfg1.N := by
    show 4 * (i 0).val + (i 1).val / 1024 < grid1.N; rw [N_1]; omega
  obtain ⟨t, ht⟩ : ∃ t : Fin cfg1.N, t.val = 4 * (i 0).val + (i 1).val / 1024 := ⟨⟨_, hN⟩, rfl⟩
  refine ⟨t, flush1_2 t, ?_⟩
  obtain ⟨-, -, -, -, -, -, o0, o1, o2⟩ := idx_out t
  rw [mem_blk_out]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 64 ≤ (i 2).val ∧ (i 2).val < win1_2.index t (2 : Fin 3) * 64 + 64; omega

/-- After region 1 the result array is q times the intermediate, of the arrays the region finds. -/
theorem final_out (c : Dev nD) : (dat1 (V1 m ρ) c).arrAt 2 cfg1.N = outArr (V1 m ρ c main_arg0) (V1 m ρ c main_v0) :=
  (dat1 (V1 m ρ) c).arrAt_eq_of_cover 2 (outArr (V1 m ρ c main_arg0) (V1 m ρ c main_v0)) (fun t _ => flushed_out m ρ c t) cover_out

/-! ## The two regions chained: the result as one function of the launch arrays -/

/-- Region 1 finds q as launched: region 0 does not touch it. -/
theorem V1_arg0 (c : Dev nD) : V1 m ρ c main_arg0 = m ((c : Thread nD τ).loc main_arg0) :=
  W1_of_ne m ρ c main_arg0 (by decide)

/-- Region 1 finds the intermediate array as region 0 left it: KᵀV of k and v as launched. -/
theorem V1_v0 (c : Dev nD) :
    V1 m ρ c main_v0 = kvArr (m ((c : Thread nD τ).loc main_arg1)) (m ((c : Thread nD τ).loc main_arg2)) :=
  (W1_arr m ρ c 2).trans (final_kv m ρ c)

/-- What the run leaves in the result array: Q · (KᵀV) of the launch arrays. -/
theorem W2_out (c : Dev nD) :
    W2 m ρ c (Proc.devRef .tc main_v1)
      = outArr (m ((c : Thread nD τ).loc main_arg0))
          (kvArr (m ((c : Thread nD τ).loc main_arg1)) (m ((c : Thread nD τ).loc main_arg2))) := by
  refine (W2_arr m ρ c 2).trans ((final_out m ρ c).trans ?_)
  rw [V1_arg0, V1_v0]

/-- Every weakly fair execution of the idealized kernel terminates with the result array at Q · (KᵀV) of the launch
    arrays and the arguments unchanged. -/
theorem run : θ_run defs (onTc (τ := τ) (main (F := Ideal))) ⟨m, fun _ => 0, ρ⟩ (fun r => ∀ c : Dev nD,
      r.2.mem ((c.tc : Thread nD τ).loc main_v1)
        = outArr (m ((c.tc : Thread nD τ).loc main_arg0))
            (kvArr (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W2_out m ρ c), (h c).2⟩) (Cert.KernelIdeal.Run.run_named m ρ)

end Cert.KernelIdeal.Val

end
-- ==== Proof.RefValue.lean ====
/-
  The reference, read entry by entry at the ideal values: its first product gives the 4096 × 4096 scores
  Σ_d q[b,r,d] · k[b,j,d] of each batch, its second multiplies them by v, so entry (b, r, e) of the result is
  Σ_j (Σ_d q[b,r,d] · k[b,j,d]) · v[b,j,e] — the array `refArr q k v`.
-/
import proofs.«134025_j61933428410286_1_alg».proof.Proof.Gen.ReferenceIdeal.Run
import proofs.«134025_j61933428410286_1_alg».proof.Proof.Gen.ReferenceIdeal.Read
import proofs.«134025_j61933428410286_1_alg».proof.Proof.Reassoc

noncomputable section

namespace Cert.ReferenceIdeal.RefVal

open Cert.ReferenceIdeal Cert.ReferenceIdeal.Read Cert.Attn Idealize.ShloMosaic Idealize.ShloMosaic.ValueIdx

/-- The two chained products of the reference are the score-then-value array. -/
theorem ref_eq (q k v : (⟨S4x4096x64, .f32⟩ : BufTy).Contents (Elt Ideal)) :
    val_main_v1 (F := Ideal) q k v = refArr q k v := by
  funext i
  rw [val_main_v1_apply]
  refine Finset.sum_congr rfl fun j _ => ?_
  rw [val_main_v0_apply]
  have eq : ∀ d : Fin 64, lidx_main_v0 (lidx_main_v1 i j) d = ix3 (i 0) (i 1) d := fun d =>
    funext fun a => Fin.ext (by match a with | ⟨0, _⟩ => rfl | ⟨1, _⟩ => rfl | ⟨2, _⟩ => rfl)
  have ek : ∀ d : Fin 64, ridx_main_v0 (lidx_main_v1 i j) d = ix3 (i 0) j d := fun d =>
    funext fun a => Fin.ext (by match a with | ⟨0, _⟩ => rfl | ⟨1, _⟩ => rfl | ⟨2, _⟩ => rfl)
  have ev : ridx_main_v1 i j = ix3 (i 0) j (i 2) :=
    funext fun a => Fin.ext (by match a with | ⟨0, _⟩ => rfl | ⟨1, _⟩ => rfl | ⟨2, _⟩ => rfl)
  simp only [eq, ek, ev]
  rfl

end Cert.ReferenceIdeal.RefVal

end
-- ==== Proof.Finite.lean ====
/-
  What the precondition says at the ideal values.  `finite_inputs` is the conjunction of three `jnp.all(|x| < +∞)`,
  one per input.  An `all` that comes out true was true at every entry; the word 0x7F800000 denotes +∞; and an
  extended real whose absolute value max(x, −x) lies strictly below +∞ is neither +∞ nor −∞, so it is a real number.
  Hence under the precondition every entry of q, k and v is real, which is what the reassociation law needs.
-/
import proofs.«134025_j61933428410286_1_alg».proof.Defs
import proofs.«134025_j61933428410286_1_alg».proof.Proof.Gen.Pre_finite_inputs
import proofs.«134025_j61933428410286_1_alg».proof.Proof.Reassoc
import Idealize.ShloMosaic.Lib.ReduceAll
import Idealize.ShloMosaic.Lib.IdealHost
import Idealize.ShloMosaic.Lib.ValueIdx

noncomputable section

namespace Cert.FiniteInputs

open Idealize.ShloMosaic Idealize.ShloMosaic.ValueIdx Idealize.SL.Sem Cert.Attn Cert.Pre_finite_inputs

/-- The word the precondition compares against denotes +∞. -/
theorem inf_word : Ideal.ofBits .f32 0x7F800000#32 = (⊤ : EReal) := by simp [Ideal.ofBits, Ideal.ieee]

/-- An extended real with max(x, −x) < +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The scalar shape has one index. -/
instance : Subsingleton S_.Idx := ⟨fun a b => funext fun d => d.elim0⟩

variable [Cert.Pre_finite_inputs.Facts]
open Cert.Pre_finite_inputs.Facts

/-- One conjunct of the precondition: if `all(|x| < +∞)` holds, every entry of x is real. -/
theorem isReal_of_all (x : FVec Ideal S4x4096x64 .f32) (j : S_.Idx)
    (h : Host.reduce IntOp.andi
        (cmpf .olt (Host.absf x) (broadcastInDim S4x4096x64 ![] bcast_S_S4x4096x64 (constant (F := Ideal) S_ .f32 0x7F800000#32)))
        (constantI S_ 1 1#1) reducesTo_S4x4096x64_S_d0_1_2 h_S_ j = 1#1) : IsReal x := by
  intro i
  have hi := Host.reduce_andi_all _ _ _ _ j h i
  have e : broadcastInDim S4x4096x64 ![] bcast_S_S4x4096x64 (constant (F := Ideal) S_ .f32 0x7F800000#32) i
      = Ideal.ofBits .f32 0x7F800000#32 := broadcastInDim_scalar_apply _ _ i
  refine real_of_abs_lt_top (x i) ?_
  rw [← inf_word, ← e]
  exact hi

/-- Under the precondition the three inputs are real-valued. -/
theorem isReal_of_pre (q k v : FVec Ideal S4x4096x64 .f32)
    (h : Cert.Pre_finite_inputs.fn (F := Ideal) q k v = fun _ => 1#1) : IsReal q ∧ IsReal k ∧ IsReal v := by
  have h0 := congrFun h ix0
  dsimp only [Cert.Pre_finite_inputs.fn] at h0
  obtain ⟨h01, h2⟩ := IntOp.andi_eq_one.1 h0
  obtain ⟨hq, hk⟩ := IntOp.andi_eq_one.1 h01
  exact ⟨isReal_of_all q ix0 hq, isReal_of_all k ix0 hk, isReal_of_all v ix0 h2⟩

/-- The same, of the idealized kernel's launch memory on each device. -/
theorem isReal_args (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2)) :=
  isReal_of_pre _ _ _ (hpre c)

end Cert.FiniteInputs

end
-- ==== Proof.lean ====
/-
  Unnormalised attention, reassociated.

  The reference computes, for each batch b, the scores  Q[b] · K[b]ᵀ  (4096 × 4096) and then  (Q[b] · K[b]ᵀ) · V[b].
  The kernel computes the small matrix  K[b]ᵀ · V[b]  (64 × 64) in a first pass over the sequence and then
  Q[b] · (K[b]ᵀ · V[b])  tile by tile.  At the ideal values every float is an extended real, the narrowing of the matmul
  operands to bf16 is the identity, and each product is the plain sum of products, so the claim is associativity of the
  matrix product, entry by entry:

      Σ_d q[b,r,d] · (Σ_s k[b,s,d] · v[b,s,e])   =   Σ_j (Σ_d q[b,r,d] · k[b,j,d]) · v[b,j,e].

  Both sides are finite sums of products; the left becomes the right by distributing q[b,r,d] over the inner sum,
  exchanging the two sums, and collecting v[b,j,e].  Distributivity does not hold at ±∞, so the precondition is used:
  every input entry is finite, hence real, and the identity is the one of real arithmetic (Reassoc.lean).

  The pieces: the kernel's run with its result named (KernelRun.lean) and read as Q · (KᵀV) of the launch arrays, region
  by region and block by block (KernelPay.lean, KernelValue.lean); the reference's run read as (Q · Kᵀ) · V
  (RefValue.lean); the precondition read as "every entry is real" (Finite.lean).  No rewrite was applied when the
  kernel was idealized, so there is nothing to preserve; the three frames are the programs' runs with the results dropped.
-/
import proofs.«134025_j61933428410286_1_alg».proof.Defs
import proofs.«134025_j61933428410286_1_alg».proof.Proof.Gen.Kernel
import proofs.«134025_j61933428410286_1_alg».proof.Proof.Gen.Kernel.Skeleton
import proofs.«134025_j61933428410286_1_alg».proof.Proof.Gen.Kernel.Launch
import proofs.«134025_j61933428410286_1_alg».proof.Proof.Gen.Kernel.Points
import proofs.«134025_j61933428410286_1_alg».proof.Proof.Gen.Kernel.Frame
import proofs.«134025_j61933428410286_1_alg».proof.Proof.Gen.KernelIdeal
import proofs.«134025_j61933428410286_1_alg».proof.Proof.Gen.KernelIdeal.Skeleton
import proofs.«134025_j61933428410286_1_alg».proof.Proof.Gen.KernelIdeal.Launch
import proofs.«134025_j61933428410286_1_alg».proof.Proof.Gen.KernelIdeal.Points
import proofs.«134025_j61933428410286_1_alg».proof.Proof.Gen.KernelIdeal.Frame
import proofs.«134025_j61933428410286_1_alg».proof.Proof.Gen.ReferenceIdeal
import proofs.«134025_j61933428410286_1_alg».proof.Proof.Gen.ReferenceIdeal.Run
import proofs.«134025_j61933428410286_1_alg».proof.Proof.Gen.ReferenceIdeal.Read
import proofs.«134025_j61933428410286_1_alg».proof.Proof.Gen.Pre_finite_inputs
import proofs.«134025_j61933428410286_1_alg».proof.Proof.Reassoc
import proofs.«134025_j61933428410286_1_alg».proof.Proof.KernelValue
import proofs.«134025_j61933428410286_1_alg».proof.Proof.RefValue
import proofs.«134025_j61933428410286_1_alg».proof.Proof.Finite
import Idealize.ShloMosaic.Adequacy
import Idealize.ShloMosaic.Init

noncomputable section

namespace Cert.Proof

open Idealize.ShloMosaic Idealize.ShloMosaic.TcCoe Idealize.SL.Sem Cert.Attn

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is two host products: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at Q · (KᵀV) of the launch arrays: the kernel by its run read block by block,
    the reference because (Q · Kᵀ) · V is the same array when every entry is real. -/
theorem algebraic : Cert.algebraic_KernelIdeal_ReferenceIdeal := by
  intro m ρ m' ρ' hpre hagree
  refine ⟨fun c => outArr (m ((c.tc : Thread Cert.KernelIdeal.nD Cert.KernelIdeal.τ).loc Cert.KernelIdeal.main_arg0))
      (kvArr (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hv⟩ := Cert.FiniteInputs.isReal_args m hpre c
  refine (Cert.ReferenceIdeal.RefVal.ref_eq _ _ _).trans ?_
  rw [(hagree c).1, (hagree c).2.1, (hagree c).2.2]
  exact (out_kv_eq_ref hq hk hv).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
